-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x256x128 : Shape := ⟨4, ![32, 256, 256, 128]⟩
abbrev S32x128x128x128 : Shape := ⟨4, ![32, 128, 128, 128]⟩
abbrev S_ : Shape := ⟨0, ![]⟩

class Facts : Prop where
  bcast_S_S32x256x256x128 : S_.BroadcastsInDim S32x256x256x128 (![] : Fin 0 → Fin S32x256x256x128.rank)
  reducesTo_S32x256x256x128_S_d0_1_2_3 : S32x256x256x128.ReducesTo [0, 1, 2, 3] S_
  h_S_ : 0 < S_.numel

variable [Facts]

def fn {F : FTy → Type} [FloatOps F] (main_arg0 : FVec F S32x256x256x128 .f32) (main_arg1 : IVec S32x128x128x128 32) : IVec S_ 1 :=
  let main_v0 : FVec F S32x256x256x128 .f32 := Host.absf main_arg0
  let main_cst : FVec F S_ .f32 := constant S_ .f32 0x7F800000#32
  let main_v1 : FVec F S32x256x256x128 .f32 := broadcastInDim S32x256x256x128 ![] bcast_S_S32x256x256x128 main_cst
  let main_v2 : IVec S32x256x256x128 1 := cmpf .olt main_v0 main_v1
  let main_c : IVec S_ 1 := constantI S_ 1 1#1
  let main_v3 : IVec S_ 1 := (fun x v => Host.reduce IntOp.andi x v reducesTo_S32x256x256x128_S_d0_1_2_3 h_S_) main_v2 main_c
  main_v3
-- ==== Kernel.lean ====
abbrev S32x256x256x128 : Shape := ⟨4, ![32, 256, 256, 128]⟩
abbrev S32x128x128x128 : Shape := ⟨4, ![32, 128, 128, 128]⟩
abbrev S32x128x2x128x2x128 : Shape := ⟨6, ![32, 128, 2, 128, 2, 128]⟩
abbrev S1x8x2x128x2x128 : Shape := ⟨6, ![1, 8, 2, 128, 2, 128]⟩
abbrev S1x8x128x128 : Shape := ⟨4, ![1, 8, 128, 128]⟩
abbrev S1x8x2x128x1x128 : Shape := ⟨6, ![1, 8, 2, 128, 1, 128]⟩
abbrev S1x8x2x128x128 : Shape := ⟨5, ![1, 8, 2, 128, 128]⟩
abbrev S1x8x1x128x128 : Shape := ⟨5, ![1, 8, 1, 128, 128]⟩

abbrev nBuf : Space → Nat
  | .hbm => 4
  | .vmem => 6
  | .smem => 0
  | _ => 0

abbrev bufTy : (tb : Table) → Fin (tcTables nBuf tb) → BufTy
  | .hbm, ⟨0, _⟩ => ⟨S32x256x256x128, .f32⟩
  | .hbm, ⟨1, _⟩ => ⟨S32x128x128x128, .i32⟩
  | .hbm, ⟨2, _⟩ => ⟨S32x128x2x128x2x128, .f32⟩
  | .hbm, ⟨3, _⟩ => ⟨S32x128x128x128, .f32⟩
  | .local _ .vmem, ⟨0, _⟩ => ⟨S1x8x2x128x2x128, .f32⟩
  | .local _ .vmem, ⟨1, _⟩ => ⟨S1x8x2x128x2x128, .f32⟩
  | .local _ .vmem, ⟨2, _⟩ => ⟨S1x8x128x128, .i32⟩
  | .local _ .vmem, ⟨3, _⟩ => ⟨S1x8x128x128, .i32⟩
  | .local _ .vmem, ⟨4, _⟩ => ⟨S1x8x128x128, .f32⟩
  | .local _ .vmem, ⟨5, _⟩ => ⟨S1x8x128x128, .f32⟩
  | _, _ => ⟨S32x256x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 16], ![false, false]⟩

def cc0_transform_0 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, arg1.toNat, c0_i32.toNat, c0_i32_0.toNat, c0_i32_1.toNat, c0_i32_2.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x8x2x128x2x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x128x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S32x256x256x128_S32x128x2x128x2x128 : S32x256x256x128.ShapeCasts S32x128x2x128x2x128
  inb_S1x8x2x128x2x128_S1x8x2x128x2x128_0_0_0_0_0_0 : ∀ a, (![0, 0, 0, 0, 0, 0] : Fin 6 → Nat) a + S1x8x2x128x2x128.size a ≤ S1x8x2x128x2x128.size a
  h_S1x8x2x128x2x128 : 0 < S1x8x2x128x2x128.numel
  shapeCasts_S1x8x2x128x2x128_S1x8x2x128x2x128 : S1x8x2x128x2x128.ShapeCasts S1x8x2x128x2x128
  slices_S1x8x2x128x2x128_o0_0_0_0_0_0_S1x8x2x128x1x128 : S1x8x2x128x2x128.Slices ![0, 0, 0, 0, 0, 0] S1x8x2x128x1x128
  shapeCasts_S1x8x2x128x1x128_S1x8x2x128x128 : S1x8x2x128x1x128.ShapeCasts S1x8x2x128x128
  slices_S1x8x2x128x2x128_o0_0_0_0_1_0_S1x8x2x128x1x128 : S1x8x2x128x2x128.Slices ![0, 0, 0, 0, 1, 0] S1x8x2x128x1x128
  slices_S1x8x2x128x128_o0_0_0_0_0_S1x8x1x128x128 : S1x8x2x128x128.Slices ![0, 0, 0, 0, 0] S1x8x1x128x128
  shapeCasts_S1x8x1x128x128_S1x8x128x128 : S1x8x1x128x128.ShapeCasts S1x8x128x128
  slices_S1x8x2x128x128_o0_0_1_0_0_S1x8x1x128x128 : S1x8x2x128x128.Slices ![0, 0, 1, 0, 0] S1x8x1x128x128
  inb_S1x8x128x128_S1x8x128x128_0_0_0_0 : ∀ a, (![0, 0, 0, 0] : Fin 4 → Nat) a + S1x8x128x128.size a ≤ S1x8x128x128.size a
  h_S1x8x128x128 : 0 < S1x8x128x128.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x2x128x2x128.size a ≤ S32x128x2x128x2x128.size a
  hwx0_0 : ∀ i : grid0.Coords, EltTy.bits .f32 = 32 ∨ (Rect.block (s := S32x128x2x128x2x128) S1x8x2x128x2x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x128x128.size a ≤ S32x128x128x128.size a
  hwx0_1 : ∀ i : grid0.Coords, EltTy.bits .i32 = 32 ∨ (Rect.block (s := S32x128x128x128) S1x8x128x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128x128.size a ≤ S32x128x128x128.size a
  hwx0_2 : ∀ i : grid0.Coords, EltTy.bits .f32 = 32 ∨ (Rect.block (s := S32x128x128x128) S1x8x128x128.size (cc0_transform_2 i) (hinb0_2 i)).WholeWords (EltTy.packing .f32)

variable [Facts₀]

abbrev win0_0 : Pipeline.Window sig grid0 :=
  Pipeline.Window.ofSpec (Memref.whole main_v0) S1x8x2x128x2x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x8x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x8x128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x256x256x128 : Shape := ⟨4, ![32, 256, 256, 128]⟩
abbrev S32x128x128x128 : Shape := ⟨4, ![32, 128, 128, 128]⟩
abbrev S32x128x2x128x2x128 : Shape := ⟨6, ![32, 128, 2, 128, 2, 128]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S32x256x256x128, .f32⟩
  | .hbm, ⟨1, _⟩ => ⟨S32x128x128x128, .i32⟩
  | .hbm, ⟨2, _⟩ => ⟨S32x128x2x128x2x128, .f32⟩
  | .hbm, ⟨3, _⟩ => ⟨S_, .f32⟩
  | .hbm, ⟨4, _⟩ => ⟨S32x128x128x128, .f32⟩
  | .hbm, ⟨5, _⟩ => ⟨S_, .f32⟩
  | .hbm, ⟨6, _⟩ => ⟨S32x128x128x128, .f32⟩
  | .hbm, ⟨7, _⟩ => ⟨S_, .f32⟩
  | .hbm, ⟨8, _⟩ => ⟨S32x128x128x128, .f32⟩
  | .hbm, ⟨9, _⟩ => ⟨S32x128x128x128, .f32⟩
  | .hbm, ⟨10, _⟩ => ⟨S32x128x128x128, .f32⟩
  | .hbm, ⟨11, _⟩ => ⟨S_, .f32⟩
  | .hbm, ⟨12, _⟩ => ⟨S32x128x128x128, .f32⟩
  | .hbm, ⟨13, _⟩ => ⟨S32x128x128x128, .f32⟩
  | .hbm, ⟨14, _⟩ => ⟨S32x128x128x128, .f32⟩
  | .hbm, ⟨15, _⟩ => ⟨S32x128x128x128, .f32⟩
  | .hbm, ⟨16, _⟩ => ⟨S32x128x128x128, .f32⟩
  | _, _ => ⟨S32x256x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  shapeCasts_S32x256x256x128_S32x128x2x128x2x128 : S32x256x256x128.ShapeCasts S32x128x2x128x2x128
  reducesTo_S32x128x2x128x2x128_S32x128x128x128_d2_4 : S32x128x2x128x2x128.ReducesTo [2, 4] S32x128x128x128
  h_S_ : 0 < S_.numel
  bcast_S_S32x128x128x128 : S_.BroadcastsInDim S32x128x128x128 (![] : Fin 0 → Fin S32x128x128x128.rank)

variable [Facts₀]

class Facts : Prop extends Facts₀ where

variable [Facts]
-- ==== Proof.LibWindow2x2.lean ====
/-
  A 2×2 pooling window read as a host reduction.

  An array of shape [n0, n1, 2, n2, 2, n3] is reduced over its two window axes (2 and 4) into [n0, n1, n2, n3].
  The source indices that drop to the result index (a, b, c, d) are exactly the four (a, b, p, c, q, d) with
  p, q ∈ {0, 1}. So a reduction with a commutative and associative body is that body folded over those four
  entries from the initial value; at the extended reals a maximum-reduce from −∞ is the maximum of the four
  entries, and an add-reduce is the initial value plus their sum.
-/
import Idealize.ShloMosaic.Lib.ValueIdxRank6
import Idealize.ShloMosaic.Lib.IdealHost
import Idealize.ShloMosaic.PureOps.Ideal.Laws
import Idealize.ShloMosaic.PureOps.Reduce

noncomputable section

namespace Cert.LibWindow2x2

open Idealize.ShloMosaic Idealize.ShloMosaic.ValueIdx

/-- The array with its two window axes: [n0, n1, 2, n2, 2, n3]. -/
abbrev Src (n0 n1 n2 n3 : Nat) : Shape := ⟨6, ![n0, n1, 2, n2, 2, n3]⟩
/-- The pooled array: [n0, n1, n2, n3]. -/
abbrev Dst (n0 n1 n2 n3 : Nat) : Shape := ⟨4, ![n0, n1, n2, n3]⟩

variable {n0 n1 n2 n3 : Nat}

/-- The dropped index's coordinate on result axis `b` is the source's on the `b`-th kept axis `c`; which axis that is
    does not depend on the extents, so it is decided with them reverted. -/
theorem drop_val (h : (Src n0 n1 n2 n3).ReducesTo [2, 4] (Dst n0 n1 n2 n3)) (i : (Src n0 n1 n2 n3).Idx)
    (b : Fin 4) (c : Fin 6)
    (hb : (b : Nat) < ((Src n0 n1 n2 n3).kept [2, 4]).length) (hc : ((Src n0 n1 n2 n3).kept [2, 4])[(b : Nat)] = c) :
    (h.drop i b : Nat) = i c := h.drop_apply_val_of_eq i b c hb hc

theorem kept_len : ((Src n0 n1 n2 n3).kept [2, 4]).length = 4 := rfl
theorem kept_0 : ((Src n0 n1 n2 n3).kept [2, 4])[0]'(by rw [kept_len]; decide) = 0 := rfl
theorem kept_1 : ((Src n0 n1 n2 n3).kept [2, 4])[1]'(by rw [kept_len]; decide) = 1 := rfl
theorem kept_2 : ((Src n0 n1 n2 n3).kept [2, 4])[2]'(by rw [kept_len]; decide) = 3 := rfl
theorem kept_3 : ((Src n0 n1 n2 n3).kept [2, 4])[3]'(by rw [kept_len]; decide) = 5 := rfl

/-- A source index drops to `j` exactly when its four kept coordinates (axes 0, 1, 3, 5) are `j`'s. -/
theorem drop_eq_iff (h : (Src n0 n1 n2 n3).ReducesTo [2, 4] (Dst n0 n1 n2 n3)) (i : (Src n0 n1 n2 n3).Idx)
    (j : (Dst n0 n1 n2 n3).Idx) :
    h.drop i = j ↔ (i 0).val = (j 0).val ∧ (i 1).val = (j 1).val ∧ (i 3).val = (j 2).val ∧ (i 5).val = (j 3).val := by
  constructor
  · rintro rfl
    exact ⟨(drop_val h i 0 0 (by rw [kept_len]; decide) kept_0).symm, (drop_val h i 1 1 (by rw [kept_len]; decide) kept_1).symm,
      (drop_val h i 2 3 (by rw [kept_len]; decide) kept_2).symm, (drop_val h i 3 5 (by rw [kept_len]; decide) kept_3).symm⟩
  · rintro ⟨h0, h1, h2, h3⟩
    funext b; apply Fin.ext
    match b with
    | ⟨0, _⟩ => exact (drop_val h i 0 0 (by rw [kept_len]; decide) kept_0).trans h0
    | ⟨1, _⟩ => exact (drop_val h i 1 1 (by rw [kept_len]; decide) kept_1).trans h1
    | ⟨2, _⟩ => exact (drop_val h i 2 3 (by rw [kept_len]; decide) kept_2).trans h2
    | ⟨3, _⟩ => exact (drop_val h i 3 5 (by rw [kept_len]; decide) kept_3).trans h3

/-- Two window entries that differ in the second window coordinate are different indices. -/
theorem ne_of_inner (a : Fin n0) (b : Fin n1) (c : Fin n2) (d : Fin n3) (p p' q q' : Fin 2) (hq : q ≠ q') :
    ix6 a b p c q d ≠ ix6 a b p' c q' d := fun e => hq (congrFun e 4)

/-- Two window entries that differ in the first window coordinate are different indices. -/
theorem ne_of_outer (a : Fin n0) (b : Fin n1) (c : Fin n2) (d : Fin n3) (p p' q q' : Fin 2) (hp : p ≠ p') :
    ix6 a b p c q d ≠ ix6 a b p' c q' d := fun e => hp (congrFun e 2)

/-- THE WINDOW: the source indices that drop to (a, b, c, d) are the four entries of its 2×2 window. -/
theorem filter_drop (h : (Src n0 n1 n2 n3).ReducesTo [2, 4] (Dst n0 n1 n2 n3)) (a : Fin n0) (b : Fin n1) (c : Fin n2)
    (d : Fin n3) :
    (Finset.univ.filter fun i => h.drop i = ix4 a b c d)
      = {ix6 a b 0 c 0 d, ix6 a b 0 c 1 d, ix6 a b 1 c 0 d, ix6 a b 1 c 1 d} := by
  ext i
  simp only [Finset.mem_filter, Finset.mem_univ, true_and, Finset.mem_insert, Finset.mem_singleton, drop_eq_iff]
  constructor
  · rintro ⟨h0, h1, h2, h3⟩
    have e : i = ix6 a b (i 2) c (i 4) d := funext fun g => Fin.ext (match g with
      | ⟨0, _⟩ => h0 | ⟨1, _⟩ => h1 | ⟨2, _⟩ => rfl | ⟨3, _⟩ => h2 | ⟨4, _⟩ => rfl | ⟨5, _⟩ => h3)
    have two : ∀ p : Fin 2, p = 0 ∨ p = 1 := by decide
    rcases two (i 2) with p | p <;> rcases two (i 4) with q | q <;> rw [p, q] at e
    · exact Or.inl e
    · exact Or.inr (Or.inl e)
    · exact Or.inr (Or.inr (Or.inl e))
    · exact Or.inr (Or.inr (Or.inr e))
  · rintro (rfl | rfl | rfl | rfl) <;> exact ⟨rfl, rfl, rfl, rfl⟩

/-- A commutative and associative body folded over the window from `init`. -/
theorem fold_filter_drop {α : Type} (f : α → α → α) [Std.Commutative f] [Std.Associative f]
    (h : (Src n0 n1 n2 n3).ReducesTo [2, 4] (Dst n0 n1 n2 n3)) (x : (Src n0 n1 n2 n3).Idx → α) (init : α)
    (a : Fin n0) (b : Fin n1) (c : Fin n2) (d : Fin n3) :
    (Finset.univ.filter fun i => h.drop i = ix4 a b c d).fold f init x
      = f (x (ix6 a b 0 c 0 d)) (f (x (ix6 a b 0 c 1 d)) (f (x (ix6 a b 1 c 0 d)) (f (x (ix6 a b 1 c 1 d)) init))) := by
  rw [filter_drop, Finset.fold_insert, Finset.fold_insert, Finset.fold_insert, Finset.fold_singleton]
  · simp only [Finset.mem_singleton]
    exact ne_of_inner a b c d 1 1 0 1 (by decide)
  · simp only [Finset.mem_insert, Finset.mem_singleton, not_or]
    exact ⟨ne_of_outer a b c d 0 1 1 0 (by decide), ne_of_outer a b c d 0 1 1 1 (by decide)⟩
  · simp only [Finset.mem_insert, Finset.mem_singleton, not_or]
    exact ⟨ne_of_inner a b c d 0 0 0 1 (by decide), ne_of_outer a b c d 0 1 0 0 (by decide),
      ne_of_outer a b c d 0 1 0 1 (by decide)⟩

/-- At the extended reals a maximum-reduce over the two window axes, from an initial value that is −∞, is the
    maximum of the window's four entries, grouped row by row. -/
theorem reduce_max_apply {φ : FTy} {u : Shape} (h : (Src n0 n1 n2 n3).ReducesTo [2, 4] (Dst n0 n1 n2 n3))
    (x : FVec Ideal (Src n0 n1 n2 n3) φ) (init : u.Idx → Ideal φ) (hu : 0 < u.numel)
    (hinit : init (Shape.Idx.first hu) = (⊥ : EReal)) (a : Fin n0) (b : Fin n1) (c : Fin n2) (d : Fin n3) :
    Host.reduce FloatOps.maximumf x init h hu (ix4 a b c d)
      = max (max (x (ix6 a b 0 c 0 d)) (x (ix6 a b 0 c 1 d))) (max (x (ix6 a b 1 c 0 d)) (x (ix6 a b 1 c 1 d))) := by
  rw [Host.reduce_eq_fold, fold_filter_drop, hinit]
  show max (x (ix6 a b 0 c 0 d)) (max (x (ix6 a b 0 c 1 d)) (max (x (ix6 a b 1 c 0 d)) (max (x (ix6 a b 1 c 1 d)) (⊥ : EReal)))) = _
  rw [max_bot_right, max_assoc]

/-- At the extended reals an add-reduce over the two window axes is the initial value plus the sum of the window's
    four entries, grouped row by row. -/
theorem reduceAdd_apply {φ : FTy} {u : Shape} (h : (Src n0 n1 n2 n3).ReducesTo [2, 4] (Dst n0 n1 n2 n3))
    (x : FVec Ideal (Src n0 n1 n2 n3) φ) (init : u.Idx → Ideal φ) (hu : 0 < u.numel)
    (a : Fin n0) (b : Fin n1) (c : Fin n2) (d : Fin n3) :
    Host.reduceAdd (F := Ideal) x init h hu (ix4 a b c d)
      = init (Shape.Idx.first hu)
        + ((x (ix6 a b 0 c 0 d) + x (ix6 a b 0 c 1 d)) + (x (ix6 a b 1 c 0 d) + x (ix6 a b 1 c 1 d))) := by
  rw [ValueIdx.hostReduceAdd_apply]
  unfold Ideal.hostReduceAdd
  rw [filter_drop, Finset.sum_insert, Finset.sum_insert, Finset.sum_insert, Finset.sum_singleton, add_assoc]
  · simp only [Finset.mem_singleton]
    exact ne_of_inner a b c d 1 1 0 1 (by decide)
  · simp only [Finset.mem_insert, Finset.mem_singleton, not_or]
    exact ⟨ne_of_outer a b c d 0 1 1 0 (by decide), ne_of_outer a b c d 0 1 1 1 (by decide)⟩
  · simp only [Finset.mem_insert, Finset.mem_singleton, not_or]
    exact ⟨ne_of_inner a b c d 0 0 0 1 (by decide), ne_of_outer a b c d 0 1 0 0 (by decide),
      ne_of_outer a b c d 0 1 0 1 (by decide)⟩

end Cert.LibWindow2x2

end
-- ==== Proof.PoolSpec.lean ====
/-
  Mixed max/average pooling over non-overlapping 2×2 windows, as one function.

  The input, with its height and width axes each split into (position, place in the window), is an array
  `xr` of shape [32, 128, 2, 128, 2, 128]; the selector `k` has the pooled shape [32, 128, 128, 128]. At the
  pooled index (a, b, c, d) the window's four entries are `xr (a, b, p, c, q, d)`, p, q ∈ {0, 1}, and the result is

      (1 − k̂) · max of the four  +  k̂ · (sum of the four · ¼),        k̂ the selector as a real.

  Both programs compute this. The only difference between them that the extended reals can see is how the mean is
  taken: the reference divides the sum by 4, the kernel multiplies it by ¼. The two words are the exact reals 4 and
  ¼, and on the extended reals dividing by a nonzero real IS multiplying by its reciprocal, at the infinities too
  (`quot_four`).
-/
import Idealize.ShloMosaic.Lib.ValueIdxRank6
import Idealize.ShloMosaic.Lib.IdealHost
import Idealize.ShloMosaic.PureOps.Ideal

noncomputable section

namespace Cert.PoolSpec

open Idealize.ShloMosaic Idealize.ShloMosaic.ValueIdx

/-- The input with both window axes split off. -/
abbrev Win : Shape := ⟨6, ![32, 128, 2, 128, 2, 128]⟩
/-- The pooled shape. -/
abbrev Out : Shape := ⟨4, ![32, 128, 128, 128]⟩

/-- The f32 word of 1/4 is the real 1/4. -/
theorem quarter_eq : Ideal.ofBits .f32 0x3E800000#32 = (((1 : ℝ) / 4 : ℝ) : EReal) := by
  simp [Ideal.ofBits, Ideal.ieee, -EReal.coe_mul]; norm_num

/-- The f32 word of 4 is the real 4. -/
theorem four_eq : Ideal.ofBits .f32 0x40800000#32 = ((4 : ℝ) : EReal) := by
  simp [Ideal.ofBits, Ideal.ieee, -EReal.coe_mul]; norm_num

/-- THE LAW that joins the two programs: the quotient by 4 is the product with ¼, on every extended real. -/
theorem quot_four (s : EReal) :
    Ideal.div s (Ideal.ofBits .f32 0x40800000#32) = s * Ideal.ofBits .f32 0x3E800000#32 := by
  rw [four_eq, quarter_eq, Ideal.div_coe (by norm_num : (4 : ℝ) ≠ 0)]

variable {n0 n1 n2 n3 : Nat}

/-- The maximum of a window's four entries, row by row. -/
def wmax (xr : (⟨6, ![n0, n1, 2, n2, 2, n3]⟩ : Shape).Idx → EReal) (a : Fin n0) (b : Fin n1) (c : Fin n2) (d : Fin n3) : EReal :=
  max (max (xr (ix6 a b 0 c 0 d)) (xr (ix6 a b 0 c 1 d))) (max (xr (ix6 a b 1 c 0 d)) (xr (ix6 a b 1 c 1 d)))

/-- The sum of a window's four entries, row by row. -/
def wsum (xr : (⟨6, ![n0, n1, 2, n2, 2, n3]⟩ : Shape).Idx → EReal) (a : Fin n0) (b : Fin n1) (c : Fin n2) (d : Fin n3) : EReal :=
  (xr (ix6 a b 0 c 0 d) + xr (ix6 a b 0 c 1 d)) + (xr (ix6 a b 1 c 0 d) + xr (ix6 a b 1 c 1 d))

/-- One pooled entry from the window's maximum `mx`, its sum `sm` and the selector word `kw`:
    (1 − k̂) · mx + k̂ · (sm · ¼). -/
def mix (kw : BitVec 32) (mx sm : EReal) : EReal :=
  (Ideal.ofBits .f32 0x3F800000#32 - FloatOps.sitofp (F := Ideal) .f32 kw) * mx
    + FloatOps.sitofp (F := Ideal) .f32 kw * (sm * Ideal.ofBits .f32 0x3E800000#32)

/-- THE POOLED ARRAY as one function of the split input and the selector, index by index. -/
def pooled (xr : Win.Idx → EReal) (k : Out.Idx → BitVec 32) : Out.Idx → EReal := fun i =>
  mix (k i) (wmax xr (i 0) (i 1) (i 2) (i 3)) (wsum xr (i 0) (i 1) (i 2) (i 3))

/-- The pooled array at coordinates. -/
theorem pooled_apply (xr : Win.Idx → EReal) (k : Out.Idx → BitVec 32) (a : Fin 32) (b : Fin 128) (c : Fin 128) (d : Fin 128) :
    pooled xr k (ix4 a b c d) = mix (k (ix4 a b c d)) (wmax xr a b c d) (wsum xr a b c d) := rfl

end Cert.PoolSpec

end
-- ==== Proof.RefPool.lean ====
/-
  The reference computes the pooled array.

  Its max-reduce and its add-reduce over the two window axes of the split input are, at a pooled index, the maximum
  and the sum of that window's four entries (the max-reduce starts from −∞, the add-reduce from 0); the mean is the
  sum divided by 4, which is the sum times ¼; the rest is the same three operations the specification names.
-/
import proofs.«417390_j84172769068198_3_alg».proof.Proof.Gen.ReferenceIdeal.Read
import proofs.«417390_j84172769068198_3_alg».proof.Proof.LibWindow2x2
import proofs.«417390_j84172769068198_3_alg».proof.Proof.PoolSpec

noncomputable section

namespace Cert.ReferenceIdeal.RefValue

open Cert.ReferenceIdeal Cert.ReferenceIdeal.Gen Cert.ReferenceIdeal.Read
open Idealize.ShloMosaic Idealize.ShloMosaic.ValueIdx Cert.PoolSpec

/-- The max-reduce's initial value, the f32 word of −∞, is the bottom of the extended reals. -/
theorem init_max : val_main_cst (F := Ideal) (Shape.Idx.first h_S_) = (⊥ : EReal) := by
  rw [val_main_cst_apply]
  show Ideal.ofBits .f32 0xFF800000#32 = ⊥
  simp [Ideal.ofBits, Ideal.ieee]

/-- The add-reduce's initial value is zero. -/
theorem init_sum : val_main_cst_0 (F := Ideal) (Shape.Idx.first h_S_) = (0 : EReal) := by
  rw [val_main_cst_0_apply]
  exact Ideal.ofBits_zero_f32

/-- The reference's max-reduce at a pooled index is the window's maximum. -/
theorem max_apply (x0 : (⟨S32x256x256x128, .f32⟩ : BufTy).Contents (Elt Ideal)) (a : Fin 32) (b : Fin 128) (c : Fin 128)
    (d : Fin 128) :
    val_main_v1 (F := Ideal) x0 (ix4 a b c d) = wmax (val_main_v0 (F := Ideal) x0) a b c d := by
  unfold val_main_v1
  exact Cert.LibWindow2x2.reduce_max_apply _ _ _ h_S_ init_max a b c d

/-- The reference's add-reduce at a pooled index is the window's sum. -/
theorem sum_apply (x0 : (⟨S32x256x256x128, .f32⟩ : BufTy).Contents (Elt Ideal)) (a : Fin 32) (b : Fin 128) (c : Fin 128)
    (d : Fin 128) :
    val_main_v2 (F := Ideal) x0 (ix4 a b c d) = wsum (val_main_v0 (F := Ideal) x0) a b c d := by
  unfold val_main_v2
  rw [Cert.LibWindow2x2.reduceAdd_apply, init_sum, zero_add]
  rfl

/-- THE REFERENCE IS THE SPECIFICATION: its result array is the pooled array of the split input and the selector. -/
theorem result_eq (x0 : (⟨S32x256x256x128, .f32⟩ : BufTy).Contents (Elt Ideal))
    (x1 : (⟨S32x128x128x128, .i32⟩ : BufTy).Contents (Elt Ideal)) :
    val_main_v10 (F := Ideal) x0 x1 = pooled (val_main_v0 (F := Ideal) x0) x1 := by
  funext i
  obtain ⟨a, b, c, d, rfl⟩ : ∃ (a : Fin 32) (b : Fin 128) (c : Fin 128) (d : Fin 128), i = ix4 a b c d :=
    ⟨i 0, i 1, i 2, i 3, eq_ix4 i⟩
  rw [pooled_apply, val_main_v10_apply, val_main_v8_apply, val_main_v9_apply, val_main_v7_apply, val_main_v6_apply,
    val_main_cst_2_apply, val_main_v5_apply, val_main_v4_apply, val_main_v3_apply, val_main_cst_1_apply,
    max_apply, sum_apply]
  unfold mix
  rw [← quot_four]
  rfl

end Cert.ReferenceIdeal.RefValue

end
-- ==== Proof.KernelPay.lean ====
/-
  The kernel body's one stored value, read at an index.

  The body loads the input block, of shape [1, 8, 2, 128, 2, 128] (eight pooled rows, each with its 2×2 windows), and the
  selector block [1, 8, 128, 128]. It takes the two places of the inner window axis apart by slicing that axis and
  dropping the unit axis the slice leaves, combines them entry by entry (maximum, sum), does the same on the outer
  window axis, and mixes. A slice followed by the cast that drops its unit axis reads ONE entry of its operand: the
  entry with the sliced place inserted. So at the block index (u, r, c, d) the stored value is the specification's
  mix of the selector there with the maximum and the sum of the block's window (u, r, ·, c, ·, d).
-/
import proofs.«417390_j84172769068198_3_alg».proof.Proof.Gen.KernelIdeal.Skeleton
import proofs.«417390_j84172769068198_3_alg».proof.Proof.PoolSpec
import Idealize.ShloMosaic.Lib.Pipeline.Value
import Idealize.ShloMosaic.Lib.ValueIdxRank6

noncomputable section

namespace Cert.KernelIdeal.Pay

open Cert.KernelIdeal Cert.KernelIdeal.Gen
open Idealize.ShloMosaic Idealize.ShloMosaic.ValueIdx Cert.PoolSpec

variable {α : Type}

/-- Place 0 of the inner window axis: slice it off and drop the unit axis. -/
theorem inner0 (x : S1x8x2x128x2x128.Idx → α) (hs : S1x8x2x128x2x128.Slices ![0, 0, 0, 0, 0, 0] S1x8x2x128x1x128)
    (hc : S1x8x2x128x1x128.ShapeCasts S1x8x2x128x128) (u : Fin 1) (r : Fin 8) (p : Fin 2) (c : Fin 128) (d : Fin 128) :
    shapeCast S1x8x2x128x128 (extractStridedSlice S1x8x2x128x1x128 ![0, 0, 0, 0, 0, 0] x hs) hc (ix5 u r p c d)
      = x (ix6 u r p c 0 d) := by
  refine (shapeCast_apply _ hc (ix5 u r p c d) (ix6 u r p c (0 : Fin 1) d) ?_).trans
    (extractStridedSlice_apply _ x hs _ (ix6 u r p c 0 d) fun a => ?_)
  · rw [Shape.rowMajor_val_six, Shape.rowMajor_val_five]
    show ((((u.val * 8 + r.val) * 2 + p.val) * 128 + c.val) * 1 + 0) * 128 + d.val
      = (((u.val * 8 + r.val) * 2 + p.val) * 128 + c.val) * 128 + d.val
    omega
  · match a with
    | ⟨0, _⟩ => show u.val = 0 + u.val; omega
    | ⟨1, _⟩ => show r.val = 0 + r.val; omega
    | ⟨2, _⟩ => show p.val = 0 + p.val; omega
    | ⟨3, _⟩ => show c.val = 0 + c.val; omega
    | ⟨4, _⟩ => show (0 : Nat) = 0 + 0; rfl
    | ⟨5, _⟩ => show d.val = 0 + d.val; omega

/-- Place 1 of the inner window axis. -/
theorem inner1 (x : S1x8x2x128x2x128.Idx → α) (hs : S1x8x2x128x2x128.Slices ![0, 0, 0, 0, 1, 0] S1x8x2x128x1x128)
    (hc : S1x8x2x128x1x128.ShapeCasts S1x8x2x128x128) (u : Fin 1) (r : Fin 8) (p : Fin 2) (c : Fin 128) (d : Fin 128) :
    shapeCast S1x8x2x128x128 (extractStridedSlice S1x8x2x128x1x128 ![0, 0, 0, 0, 1, 0] x hs) hc (ix5 u r p c d)
      = x (ix6 u r p c 1 d) := by
  refine (shapeCast_apply _ hc (ix5 u r p c d) (ix6 u r p c (0 : Fin 1) d) ?_).trans
    (extractStridedSlice_apply _ x hs _ (ix6 u r p c 1 d) fun a => ?_)
  · rw [Shape.rowMajor_val_six, Shape.rowMajor_val_five]
    show ((((u.val * 8 + r.val) * 2 + p.val) * 128 + c.val) * 1 + 0) * 128 + d.val
      = (((u.val * 8 + r.val) * 2 + p.val) * 128 + c.val) * 128 + d.val
    omega
  · match a with
    | ⟨0, _⟩ => show u.val = 0 + u.val; omega
    | ⟨1, _⟩ => show r.val = 0 + r.val; omega
    | ⟨2, _⟩ => show p.val = 0 + p.val; omega
    | ⟨3, _⟩ => show c.val = 0 + c.val; omega
    | ⟨4, _⟩ => show (1 : Nat) = 1 + 0; rfl
    | ⟨5, _⟩ => show d.val = 0 + d.val; omega

/-- Place 0 of the outer window axis: slice it off and drop the unit axis. -/
theorem outer0 (y : S1x8x2x128x128.Idx → α) (hs : S1x8x2x128x128.Slices ![0, 0, 0, 0, 0] S1x8x1x128x128)
    (hc : S1x8x1x128x128.ShapeCasts S1x8x128x128) (u : Fin 1) (r : Fin 8) (c : Fin 128) (d : Fin 128) :
    shapeCast S1x8x128x128 (extractStridedSlice S1x8x1x128x128 ![0, 0, 0, 0, 0] y hs) hc (ix4 u r c d)
      = y (ix5 u r 0 c d) := by
  refine (shapeCast_apply _ hc (ix4 u r c d) (ix5 u r (0 : Fin 1) c d) ?_).trans
    (extractStridedSlice_apply _ y hs _ (ix5 u r 0 c d) fun a => ?_)
  · rw [Shape.rowMajor_val_five, Shape.rowMajor_val_four]
    show (((u.val * 8 + r.val) * 1 + 0) * 128 + c.val) * 128 + d.val = ((u.val * 8 + r.val) * 128 + c.val) * 128 + d.val
    omega
  · match a with
    | ⟨0, _⟩ => show u.val = 0 + u.val; omega
    | ⟨1, _⟩ => show r.val = 0 + r.val; omega
    | ⟨2, _⟩ => show (0 : Nat) = 0 + 0; rfl
    | ⟨3, _⟩ => show c.val = 0 + c.val; omega
    | ⟨4, _⟩ => show d.val = 0 + d.val; omega

/-- Place 1 of the outer window axis. -/
theorem outer1 (y : S1x8x2x128x128.Idx → α) (hs : S1x8x2x128x128.Slices ![0, 0, 1, 0, 0] S1x8x1x128x128)
    (hc : S1x8x1x128x128.ShapeCasts S1x8x128x128) (u : Fin 1) (r : Fin 8) (c : Fin 128) (d : Fin 128) :
    shapeCast S1x8x128x128 (extractStridedSlice S1x8x1x128x128 ![0, 0, 1, 0, 0] y hs) hc (ix4 u r c d)
      = y (ix5 u r 1 c d) := by
  refine (shapeCast_apply _ hc (ix4 u r c d) (ix5 u r (0 : Fin 1) c d) ?_).trans
    (extractStridedSlice_apply _ y hs _ (ix5 u r 1 c d) fun a => ?_)
  · rw [Shape.rowMajor_val_five, Shape.rowMajor_val_four]
    show (((u.val * 8 + r.val) * 1 + 0) * 128 + c.val) * 128 + d.val = ((u.val * 8 + r.val) * 128 + c.val) * 128 + d.val
    omega
  · match a with
    | ⟨0, _⟩ => show u.val = 0 + u.val; omega
    | ⟨1, _⟩ => show r.val = 0 + r.val; omega
    | ⟨2, _⟩ => show (1 : Nat) = 1 + 0; rfl
    | ⟨3, _⟩ => show c.val = 0 + c.val; omega
    | ⟨4, _⟩ => show d.val = 0 + d.val; omega

/-- THE STORED VALUE at a block index: the mix of the selector there with the maximum and the sum of the input
    block's window at that index. -/
theorem pay_apply (x0 : Vec Ideal S1x8x2x128x2x128 .f32) (x1 : Vec Ideal S1x8x128x128 .i32)
    (u : Fin 1) (r : Fin 8) (c : Fin 128) (d : Fin 128) :
    k0_pay1 (F := Ideal) x0 x1 (ix4 u r c d) = mix (x1 (ix4 u r c d)) (wmax x0 u r c d) (wsum x0 u r c d) := by
  unfold k0_pay1
  simp only [addf, mulf, subf, maximumf, broadcast, sitofp, shapeCast_self, outer0, outer1, inner0, inner1]
  rfl

end Cert.KernelIdeal.Pay

end
-- ==== Proof.KernelPool.lean ====
/-
  The kernel's output array after the run is the pooled array.

  The grid has 32 × 16 points. Point (b, i) reads the block of the split input at block index (b, i, 0, 0, 0, 0) — image b,
  pooled rows 8i … 8i+7, every window — and the selector's and the output's blocks at (b, i, 0, 0). An entry (u, r, c, d) of
  a block therefore sits in its array at image b and row 8i + r, with its other coordinates unchanged. With the body's
  stored value read at an index, what point (b, i) writes back is the block of the pooled array at its block index; the
  blocks of the 512 points cover the output (the point for pooled row h of image b is (b, h / 8)); so the output array
  ends as the pooled array of the split input — the host's reshape of the first argument — and the selector.
-/
import proofs.«417390_j84172769068198_3_alg».proof.Proof.Gen.KernelIdeal.Value
import proofs.«417390_j84172769068198_3_alg».proof.Proof.KernelPay
import proofs.«417390_j84172769068198_3_alg».proof.Proof.PoolSpec
import Idealize.ShloMosaic.Lib.Pipeline.Value
import Idealize.ShloMosaic.Lib.StableHlo.Run
import Idealize.ShloMosaic.Lib.ValueIdxRank6

noncomputable section

namespace Cert.KernelIdeal.PoolValue

open Cert.KernelIdeal Cert.KernelIdeal.Gen Idealize.ShloMosaic Idealize.ShloMosaic.TcCoe Idealize.SL.Sem
open Idealize.ShloMosaic.Pipeline (Dat)
open Idealize.ShloMosaic.ValueIdx Cert.PoolSpec

variable (m : (ℓ : Loc nD τ sig) → Buf (Elt Ideal) ℓ) (ρ : Dev nD → PrngReg)

theorem zero6 : (![0, 0, 0, 0, 0, 0] : Fin 6 → Nat) = fun _ => 0 := funext fun a => by fin_cases a <;> rfl
theorem zero4 : (![0, 0, 0, 0] : Fin 4 → Nat) = fun _ => 0 := funext fun a => by fin_cases a <;> rfl

/-! ## One point -/

/-- ONE POINT, over plain arrays: if the input block `x0` is the part of `X` at image `bi` and rows `8·ti + r`, and the
    selector block `x1` the part of `K` there, then the body's stored value at (u, r, c, d) is the pooled array of `X` and
    `K` at (bi, 8·ti + r, c, d). -/
theorem point_eq (x0 : Vec Ideal S1x8x2x128x2x128 .f32) (x1 : Vec Ideal S1x8x128x128 .i32)
    (X : Win.Idx → EReal) (K : Out.Idx → BitVec 32) (bi : Fin 32) (ti : Fin 16)
    (h0 : ∀ (u : Fin 1) (r : Fin 8) (p : Fin 2) (c : Fin 128) (q : Fin 2) (d : Fin 128),
      x0 (ix6 u r p c q d) = X (ix6 bi (⟨ti.val * 8 + r.val, by omega⟩ : Fin 128) p c q d))
    (h1 : ∀ (u : Fin 1) (r : Fin 8) (c : Fin 128) (d : Fin 128),
      x1 (ix4 u r c d) = K (ix4 bi (⟨ti.val * 8 + r.val, by omega⟩ : Fin 128) c d))
    (u : Fin 1) (r : Fin 8) (c : Fin 128) (d : Fin 128) :
    k0_pay1 (F := Ideal) x0 x1 (ix4 u r c d) = pooled X K (ix4 bi (⟨ti.val * 8 + r.val, by omega⟩ : Fin 128) c d) := by
  rw [Pay.pay_apply, pooled_apply]
  unfold wmax wsum
  rw [h0, h0, h0, h0, h1]

/-! ## The index maps -/

/-- The printed index maps over the grid: the two input windows move with the output on the image and row-block axes
    and stay at block 0 on every other axis; the output's block indices are in range. -/
theorem idx_facts : ∀ t : Fin cfg0.N,
    win0_0.index t (0 : Fin 6) = win0_2.index t (0 : Fin 4) ∧ win0_0.index t (1 : Fin 6) = win0_2.index t (1 : Fin 4)
    ∧ win0_0.index t (2 : Fin 6) = 0 ∧ win0_0.index t (3 : Fin 6) = 0 ∧ win0_0.index t (4 : Fin 6) = 0 ∧ win0_0.index t (5 : Fin 6) = 0
    ∧ win0_1.index t (0 : Fin 4) = win0_2.index t (0 : Fin 4) ∧ win0_1.index t (1 : Fin 4) = win0_2.index t (1 : Fin 4)
    ∧ win0_1.index t (2 : Fin 4) = 0 ∧ win0_1.index t (3 : Fin 4) = 0
    ∧ win0_2.index t (2 : Fin 4) = 0 ∧ win0_2.index t (3 : Fin 4) = 0
    ∧ win0_2.index t (0 : Fin 4) < 32 ∧ win0_2.index t (1 : Fin 4) < 16 :=
  (by decide +kernel : ∀ t : Fin grid0.N, _)

/-- Every (image, row block) is some point's output block index. -/
theorem idx_onto : ∀ (q0 : Fin 32) (q1 : Fin 16), ∃ t : Fin cfg0.N,
    win0_2.index t (0 : Fin 4) = q0.val ∧ win0_2.index t (1 : Fin 4) = q1.val :=
  (by decide +kernel : ∀ (q0 : Fin 32) (q1 : Fin 16), ∃ t : Fin grid0.N,
    win0_2.index t (0 : Fin 4) = q0.val ∧ win0_2.index t (1 : Fin 4) = q1.val)

/-! ## What a point writes back -/

/-- WHAT POINT `t` WRITES BACK is block `t` of the pooled array of the split input and the selector, as the region
    finds them. -/
theorem flushed_eq (c : Dev nD) (t : Fin cfg0.N) :
    (dats m 0 c).flushed 2 t
      = ((cfg0.win 2).blk t).view.read (Elt Ideal) (pooled (V m c main_v0) (V m c main_arg1)) := by
  rw [Value.flushed2]
  unfold out0_2
  rw [View.canon_unit_zero zero4]
  simp only [View.ld_unit_zero (S := S1x8x2x128x2x128) zero6, View.ld_unit_zero (S := S1x8x128x128) zero4]
  obtain ⟨a0, a1, a2, a3, a4, a5, k0, k1, k2, k3, o2, o3, hb, ht⟩ := idx_facts t
  funext j
  obtain ⟨u, r, c', d, rfl⟩ : ∃ (u : Fin 1) (r : Fin 8) (c' : Fin 128) (d : Fin 128), j = ix4 u r c' d :=
    ⟨j 0, j 1, j 2, j 3, eq_ix4 j⟩
  have hu : u.val = 0 := by omega
  have hr : r.val < 8 := r.isLt
  show k0_pay1 (F := Ideal) (iblk m c 0 t) (iblk m c 1 t) (ix4 u r c' d)
    = pooled (V m c main_v0) (V m c main_arg1) (((cfg0.win 2).blk t).view.emb (ix4 u r c' d))
  have hemb : ((cfg0.win 2).blk t).view.emb (ix4 u r c' d)
      = ix4 (⟨win0_2.index t (0 : Fin 4), hb⟩ : Fin 32)
          (⟨win0_2.index t (1 : Fin 4) * 8 + r.val, by omega⟩ : Fin 128) c' d := by
    funext a; apply Fin.ext
    match a with
    | ⟨0, _⟩ => show win0_2.index t (0 : Fin 4) * 1 + 1 * u.val = win0_2.index t (0 : Fin 4); omega
    | ⟨1, _⟩ => show win0_2.index t (1 : Fin 4) * 8 + 1 * r.val = win0_2.index t (1 : Fin 4) * 8 + r.val; omega
    | ⟨2, _⟩ => show win0_2.index t (2 : Fin 4) * 128 + 1 * c'.val = c'.val; omega
    | ⟨3, _⟩ => show win0_2.index t (3 : Fin 4) * 128 + 1 * d.val = d.val; omega
  rw [hemb]
  refine point_eq (iblk m c 0 t) (iblk m c 1 t) (V m c main_v0) (V m c main_arg1)
    (⟨win0_2.index t (0 : Fin 4), hb⟩ : Fin 32) (⟨win0_2.index t (1 : Fin 4), ht⟩ : Fin 16) ?_ ?_ u r c' d
  · intro u r p c' q d
    have hu : u.val = 0 := by omega
    show V m c main_v0 (((cfg0.win 0).blk t).view.emb (ix6 u r p c' q d)) = V m c main_v0 _
    refine congrArg (V m c main_v0) (funext fun a => Fin.ext ?_)
    match a with
    | ⟨0, _⟩ => show win0_0.index t (0 : Fin 6) * 1 + 1 * u.val = win0_2.index t (0 : Fin 4); omega
    | ⟨1, _⟩ => show win0_0.index t (1 : Fin 6) * 8 + 1 * r.val = win0_2.index t (1 : Fin 4) * 8 + r.val; omega
    | ⟨2, _⟩ => show win0_0.index t (2 : Fin 6) * 2 + 1 * p.val = p.val; omega
    | ⟨3, _⟩ => show win0_0.index t (3 : Fin 6) * 128 + 1 * c'.val = c'.val; omega
    | ⟨4, _⟩ => show win0_0.index t (4 : Fin 6) * 2 + 1 * q.val = q.val; omega
    | ⟨5, _⟩ => show win0_0.index t (5 : Fin 6) * 128 + 1 * d.val = d.val; omega
  · intro u r c' d
    have hu : u.val = 0 := by omega
    show V m c main_arg1 (((cfg0.win 1).blk t).view.emb (ix4 u r c' d)) = V m c main_arg1 _
    refine congrArg (V m c main_arg1) (funext fun a => Fin.ext ?_)
    match a with
    | ⟨0, _⟩ => show win0_1.index t (0 : Fin 4) * 1 + 1 * u.val = win0_2.index t (0 : Fin 4); omega
    | ⟨1, _⟩ => show win0_1.index t (1 : Fin 4) * 8 + 1 * r.val = win0_2.index t (1 : Fin 4) * 8 + r.val; omega
    | ⟨2, _⟩ => show win0_1.index t (2 : Fin 4) * 128 + 1 * c'.val = c'.val; omega
    | ⟨3, _⟩ => show win0_1.index t (3 : Fin 4) * 128 + 1 * d.val = d.val; omega

/-! ## The blocks cover the output -/

/-- An index of the output is in point `t`'s block iff each coordinate is in the block's range on its axis. -/
theorem mem_blk (t : Fin cfg0.N) (i : S32x128x128x128.Idx) :
    i ∈ ((cfg0.win 2).blk t).view.set ↔ ∀ a : Fin 4, win0_2.index t a * S1x8x128x128.size a ≤ (i a).val
      ∧ (i a).val < win0_2.index t a * S1x8x128x128.size a + S1x8x128x128.size a := by
  show i ∈ ((View.whole main_v1).slice (win0_2.rect t)).set ↔ _
  rw [View.set_slice_whole, Rect.mem_set_unit]
  exact Iff.rfl

/-- Every output index is in some point's block: image `i 0`, row block `i 1 / 8`. -/
theorem cover (i : S32x128x128x128.Idx) :
    ∃ t : Fin cfg0.N, (cfg0.win 2).flush t = true ∧ i ∈ ((cfg0.win 2).blk t).view.set := by
  have hi1 : (i 1).val < 128 := (i 1).isLt
  have hi2 : (i 2).val < 128 := (i 2).isLt
  have hi3 : (i 3).val < 128 := (i 3).isLt
  obtain ⟨t, q0, q1⟩ := idx_onto (i 0) (⟨(i 1).val / 8, by omega⟩ : Fin 16)
  obtain ⟨a0, a1, a2, a3, a4, a5, k0, k1, k2, k3, o2, o3, hb, ht⟩ := idx_facts t
  have q1' : win0_2.index t (1 : Fin 4) = (i 1).val / 8 := q1
  refine ⟨t, flush0_2 t, ?_⟩
  rw [mem_blk]
  intro a
  match a with
  | ⟨0, _⟩ =>
    show win0_2.index t (0 : Fin 4) * 1 ≤ (i 0).val ∧ (i 0).val < win0_2.index t (0 : Fin 4) * 1 + 1
    omega
  | ⟨1, _⟩ =>
    show win0_2.index t (1 : Fin 4) * 8 ≤ (i 1).val ∧ (i 1).val < win0_2.index t (1 : Fin 4) * 8 + 8
    omega
  | ⟨2, _⟩ =>
    show win0_2.index t (2 : Fin 4) * 128 ≤ (i 2).val ∧ (i 2).val < win0_2.index t (2 : Fin 4) * 128 + 128
    omega
  | ⟨3, _⟩ =>
    show win0_2.index t (3 : Fin 4) * 128 ≤ (i 3).val ∧ (i 3).val < win0_2.index t (3 : Fin 4) * 128 + 128
    omega

/-! ## The array after the run -/

/-- The split input as the region finds it: the host's reshape of the first argument. -/
theorem V_main_v0 (c : Dev nD) :
    (V m c main_v0 : S32x128x2x128x2x128.Idx → EReal)
      = shapeCast S32x128x2x128x2x128 (m ((c : Thread nD τ).loc main_arg0)) shapeCasts_S32x256x256x128_S32x128x2x128x2x128 := by
  dsimp only [Gen.V, Gen.hostOps0]
  after_results
  rfl

/-- THE OUTPUT ARRAY after the run: the pooled array of the reshaped first argument and the second argument. -/
theorem final (c : Dev nD) :
    (dats m 0 c).arrAt 2 cfg0.N
      = pooled (shapeCast S32x128x2x128x2x128 (m ((c : Thread nD τ).loc main_arg0)) shapeCasts_S32x256x256x128_S32x128x2x128x2x128)
          (m ((c : Thread nD τ).loc main_arg1)) := by
  rw [← V_main_v0 m c, ← V_main_arg1 m c]
  exact (dats m 0 c).arrAt_eq_of_cover 2 _ (fun t _ => flushed_eq m c t) cover

/-- THE RUN, READ: every weakly fair execution of the kernel's program terminates with the output array at the pooled
    array of its arguments and the arguments unchanged. -/
theorem run : θ_run defs (onTc (τ := τ) (main (F := Ideal))) ⟨m, fun _ => 0, ρ⟩ fun r => ∀ c : Dev nD,
      r.2.mem ((c : Thread nD τ).loc main_v1)
        = pooled (shapeCast S32x128x2x128x2x128 (m ((c : Thread nD τ).loc main_arg0)) shapeCasts_S32x256x256x128_S32x128x2x128x2x128)
            (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.PoolValue

end
-- ==== Proof.lean ====
/-
  Mixed max/average pooling over non-overlapping 2×2 windows: a tiled kernel against the plain reference.

  Both programs split the height and width axes of the input into (position, place in the window) by the same
  reshape, and both return, at each pooled index,

      (1 − k̂) · max of the window's four entries  +  k̂ · mean of the four,        k̂ the integer selector as a real.

  The reference takes the maximum and the sum by reductions over the two window axes and divides the sum by 4. The
  kernel works block by block (one image, eight pooled rows at a time): it takes the window's places apart by slicing,
  combines them with entrywise maximum and sum, and multiplies the sum by ¼. On the extended reals the maximum and
  the sum of four entries do not depend on their grouping or on a neutral initial value, and dividing by 4 is
  multiplying by ¼, so the two results are one function of the arguments (Proof/PoolSpec.lean); no finiteness of the
  input is used. Proof/RefPool.lean shows the reference's result is that function, Proof/KernelPay.lean and
  Proof/KernelPool.lean that the kernel's output array is. Each program runs to completion leaving its arguments
  unchanged; the idealized kernel is the kernel's own text read at the extended reals, so nothing is owed for it.
-/
import proofs.«417390_j84172769068198_3_alg».proof.Defs
import proofs.«417390_j84172769068198_3_alg».proof.Proof.Gen.Kernel
import proofs.«417390_j84172769068198_3_alg».proof.Proof.Gen.Kernel.Skeleton
import proofs.«417390_j84172769068198_3_alg».proof.Proof.Gen.Kernel.Launch
import proofs.«417390_j84172769068198_3_alg».proof.Proof.Gen.Kernel.Points
import proofs.«417390_j84172769068198_3_alg».proof.Proof.Gen.Kernel.Frame
import proofs.«417390_j84172769068198_3_alg».proof.Proof.Gen.KernelIdeal
import proofs.«417390_j84172769068198_3_alg».proof.Proof.Gen.KernelIdeal.Skeleton
import proofs.«417390_j84172769068198_3_alg».proof.Proof.Gen.KernelIdeal.Launch
import proofs.«417390_j84172769068198_3_alg».proof.Proof.Gen.KernelIdeal.Points
import proofs.«417390_j84172769068198_3_alg».proof.Proof.Gen.KernelIdeal.Frame
import proofs.«417390_j84172769068198_3_alg».proof.Proof.Gen.ReferenceIdeal
import proofs.«417390_j84172769068198_3_alg».proof.Proof.Gen.Pre_finite_inputs
import proofs.«417390_j84172769068198_3_alg».proof.Proof.Gen.KernelIdeal.Value
import proofs.«417390_j84172769068198_3_alg».proof.Proof.Gen.ReferenceIdeal.Run
import proofs.«417390_j84172769068198_3_alg».proof.Proof.Gen.ReferenceIdeal.Read
import proofs.«417390_j84172769068198_3_alg».proof.Proof.RefPool
import proofs.«417390_j84172769068198_3_alg».proof.Proof.KernelPool
import Idealize.ShloMosaic.Adequacy
import Idealize.ShloMosaic.Init

noncomputable section

namespace Cert.Proof

open Idealize.ShloMosaic Idealize.ShloMosaic.TcCoe Idealize.SL.Sem

/-- The kernel as printed runs to completion and leaves its arguments unchanged. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments, the kernel's output array ends as the pooled array of its arguments,
    and the reference's result, whose term is the same pooled array, of the same arguments. -/
theorem algebraic : Cert.algebraic_KernelIdeal_ReferenceIdeal := by
  intro m ρ m' ρ' _ hagree
  refine ⟨_, Cert.KernelIdeal.PoolValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.result_eq, (hagree c).1, (hagree c).2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
